-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S4000x128 : Shape := ⟨2, ![4000, 128]⟩
abbrev S4000x64 : Shape := ⟨2, ![4000, 64]⟩
abbrev S3300000x64 : Shape := ⟨2, ![3300000, 64]⟩
abbrev S1x64 : Shape := ⟨2, ![1, 64]⟩
abbrev S100000x1 : Shape := ⟨2, ![100000, 1]⟩
abbrev S4000x1 : Shape := ⟨2, ![4000, 1]⟩
abbrev S1x1 : Shape := ⟨2, ![1, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x1, .f32⟩
  | .hbm, ⟨75, _⟩ => ⟨S3300000x1, .f32⟩
  | .hbm, ⟨76, _⟩ => ⟨S3300000x1, .f32⟩
  | .hbm, ⟨77, _⟩ => ⟨S_, .f32⟩
  | .hbm, ⟨78, _⟩ => ⟨S100000x1, .f32⟩
  | .hbm, ⟨79, _⟩ => ⟨S3300000x1, .i32⟩
  | .hbm, ⟨80, _⟩ => ⟨S100000x1, .f32⟩
  | .hbm, ⟨81, _⟩ => ⟨S1x1, .f32⟩
  | .hbm, ⟨82, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S64x1, .f32⟩
  | .local _ .vmem, ⟨13, _⟩ => ⟨S4000x1, .f32⟩
  | .local _ .vmem, ⟨14, _⟩ => ⟨S4000x1, .f32⟩
  | .local _ .vmem, ⟨15, _⟩ => ⟨S4000x1, .f32⟩
  | .local _ .vmem, ⟨16, _⟩ => ⟨S4000x1, .f32⟩
  | .local _ .vmem, ⟨17, _⟩ => ⟨S1x1, .f32⟩
  | .local _ .vmem, ⟨18, _⟩ => ⟨S4000x1, .f32⟩
  | .local _ .vmem, ⟨19, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S4000x1_S4000x1_0_0 : ∀ a, (![0, 0] : Fin 2 → Nat) a + S4000x1.size a ≤ S4000x1.size a
  h_S4000x1 : 0 < S4000x1.numel
  bcast_S_S100000x1 : S_.BroadcastsInDim S100000x1 (![] : Fin 0 → Fin S100000x1.rank)
  shapeCasts_S1_S1x1 : S1.ShapeCasts S1x1
  shapeCasts_S4000x1_S4000x1 : S4000x1.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x128_S128x64_S4000x64_1_0_0_1_n_n_wf : DotDims.WF S4000x128 S128x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x1_S4000x1_1_0_0_1_n_n_wf : DotDims.WF S4000x64 S64x1 S4000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x1.size a ≤ S100000x1.size a
  hwx3_0 : ∀ i : grid3.Coords, EltTy.bits .f32 = 32 ∨ (Rect.block (s := S100000x1) S4000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S4000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S4000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x1, .f32⟩
  | .hbm, ⟨79, _⟩ => ⟨S3300000x1, .f32⟩
  | .hbm, ⟨80, _⟩ => ⟨S3300000x1, .f32⟩
  | .hbm, ⟨81, _⟩ => ⟨S_, .f32⟩
  | .hbm, ⟨82, _⟩ => ⟨S100000x1, .f32⟩
  | .hbm, ⟨83, _⟩ => ⟨S3300000x1, .i32⟩
  | .hbm, ⟨84, _⟩ => ⟨S100000x1, .f32⟩
  | .hbm, ⟨85, _⟩ => ⟨S1x1, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S_, .f32⟩
  | .hbm, ⟨94, _⟩ => ⟨S100000x1, .f32⟩
  | .hbm, ⟨95, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Kept.lean ====
/-
  The argument arrays along the fold.  No host operation and no region writes an argument buffer, so at every
  segment boundary an argument buffer still holds its launch contents: a host stretch leaves every buffer it does
  not write, and a region leaves every buffer that is not one of its windows' arrays (and its input windows'
  arrays too).
-/
import proofs.«171226_j29197187678384_1_alg».proof.Proof.Gen.KernelIdeal.Frame
import Idealize.ShloMosaic.Lib.StableHlo.Run

set_option maxRecDepth 16384

noncomputable section

namespace Cert.KernelIdeal.Kept

open Cert.KernelIdeal Cert.KernelIdeal.Gen
open Idealize.ShloMosaic Idealize.ShloMosaic.TcCoe Idealize.SL.Sem
open Idealize.ShloMosaic.Pipeline (Dat Cfg Window)

open Idealize.ShloMosaic.StableHlo

variable {F : FTy → Type} [FloatOps F]
variable (m : (ℓ : Loc nD τ sig) → Buf (Elt F) ℓ) (ρ : Dev nD → PrngReg) (c : Dev nD)

/-- Region 0 is entered with the first argument as launched. -/
theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp
/-- Region 0 is entered with the third argument as launched. -/
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

/-- After region 0, the bias of layer 1 (no window of region 0). -/
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-- After the second host stretch. -/
theorem W5_arg4 : W5 m ρ c (Proc.devRef .tc main_arg4) = m ((c : Thread nD τ).loc main_arg4) := by
  show StableHlo.after hostOps1 (W4 m ρ c) (Proc.devRef .tc main_arg4) = _
  after_results_simp
  exact W4_arg4 m ρ c
theorem W5_arg5 : W5 m ρ c (Proc.devRef .tc main_arg5) = m ((c : Thread nD τ).loc main_arg5) := by
  show StableHlo.after hostOps1 (W4 m ρ c) (Proc.devRef .tc main_arg5) = _
  after_results_simp
  exact W4_arg5 m ρ c

/-- After region 1 (its windows' arrays are %43, %44, %45). -/
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)

/-- After region 2 (its windows' arrays are %45, the fifth argument, %46). -/
theorem W7_arg5 : W7 m ρ c (Proc.devRef .tc main_arg5) = m ((c : Thread nD τ).loc main_arg5) :=
  (W7_of_ne m ρ c main_arg5 (by decide)).trans (W6_arg5 m ρ c)

end Cert.KernelIdeal.Kept

end
-- ==== Proof.HostChain.lean ====
/-
  The host stretches of the kernel's @main against the reference's stages, at any float family.  Both programs
  build the destination indices, the source indices and the symmetric normalisation weights from the edge list
  by the same operations, and both propagate a layer by the same gather along the sources, scaling by the
  weights, and scatter-add along the destinations.  Only the values fed to the two propagations differ in how they
  are made, so each propagation is carried as ONE function of the array it propagates.
-/
import proofs.«171226_j29197187678384_1_alg».proof.Proof.Gen.KernelIdeal.Frame
import proofs.«171226_j29197187678384_1_alg».proof.Proof.RefRead
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem
open Idealize.ShloMosaic.Pipeline (Dat Cfg Window)

open Idealize.ShloMosaic.StableHlo
open Cert.ReferenceIdeal.ReadP

variable {F : FTy → Type} [FloatOps F]

/-! ## The reference's two propagations as functions of the propagated array -/

/-- Layer 1's propagation of a [100000,64] array `h` over the edge list `e`: gather the source rows, scale each by
    its edge's weight, add into the destination rows. -/
def prop64 (e : (⟨Cert.ReferenceIdeal.S2x3200000, .i32⟩ : BufTy).Contents (Elt F))
    (h : (⟨Cert.ReferenceIdeal.S100000x64, .f32⟩ : BufTy).Contents (Elt F)) :
    (⟨Cert.ReferenceIdeal.S100000x64, .f32⟩ : BufTy).Contents (Elt F) :=
  Host.scatterAdd Cert.ReferenceIdeal.scatter_S100000x64_S3300000x1_S3300000x64_1_0_0_1 (val_main_v41 (F := F)) (val_main_v42 (F := F) e)
    (mulf (Host.gather Cert.ReferenceIdeal.gather_S100000x64_S3300000x1_S3300000x64_1_0_n_n_0_1_164 h (val_main_v36 (F := F) e)) (val_main_v39 (F := F) e))

/-- The reference's propagated first layer is that function of its first product. -/
theorem val_v43_eq (x0 : (⟨Cert.ReferenceIdeal.S100000x128, .f32⟩ : BufTy).Contents (Elt F)) (e : (⟨Cert.ReferenceIdeal.S2x3200000, .i32⟩ : BufTy).Contents (Elt F))
    (x2 : (⟨Cert.ReferenceIdeal.S128x64, .f32⟩ : BufTy).Contents (Elt F)) :
    val_main_v43 (F := F) x0 e x2 = prop64 e (val_main_v30 (F := F) x0 x2) := rfl

/-- Layer 2's propagation of a [100000,1] array. -/
def prop1 (e : (⟨Cert.ReferenceIdeal.S2x3200000, .i32⟩ : BufTy).Contents (Elt F))
    (h : (⟨Cert.ReferenceIdeal.S100000x1, .f32⟩ : BufTy).Contents (Elt F)) :
    (⟨Cert.ReferenceIdeal.S100000x1, .f32⟩ : BufTy).Contents (Elt F) :=
  Host.scatterAdd Cert.ReferenceIdeal.scatter_S100000x1_S3300000x1_S3300000x1_1_0_0_1 (val_main_v58 (F := F)) (val_main_v59 (F := F) e)
    (mulf (Host.gather Cert.ReferenceIdeal.gather_S100000x1_S3300000x1_S3300000x1_1_0_n_n_0_1_11 h (val_main_v54 (F := F) e)) (val_main_v56 (F := F) e))

/-- The reference's propagated second layer is that function of its second product. -/
theorem val_v60_eq (x0 : (⟨Cert.ReferenceIdeal.S100000x128, .f32⟩ : BufTy).Contents (Elt F)) (e : (⟨Cert.ReferenceIdeal.S2x3200000, .i32⟩ : BufTy).Contents (Elt F))
    (x2 : (⟨Cert.ReferenceIdeal.S128x64, .f32⟩ : BufTy).Contents (Elt F)) (x3 : (⟨Cert.ReferenceIdeal.S64, .f32⟩ : BufTy).Contents (Elt F))
    (x4 : (⟨Cert.ReferenceIdeal.S64x1, .f32⟩ : BufTy).Contents (Elt F)) :
    val_main_v60 (F := F) x0 e x2 x3 x4 = prop1 e (val_main_v48 (F := F) x0 e x2 x3 x4) := rfl

/-! ## The kernel's first host stretch -/

variable (m : (ℓ : Loc nD τ sig) → Buf (Elt F) ℓ) (ρ : Dev nD → PrngReg) (c : Dev nD)

/-- The destination indices (with the self loops appended) are the reference's. -/
theorem row_eq : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The source indices are the reference's. -/
theorem col_eq : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp
  rfl

/-- The normalisation weights (the inverse root degree gathered at both ends of each edge, multiplied) are the
    reference's. -/
theorem norm_eq : W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  after_results_simp
  rfl

/-! ## The kernel's two propagating stretches, from any contents that hold the indices and the weights -/

/-- The stretch between regions 0 and 1 leaves in %43 the first propagation of whatever %30 held. -/
theorem stretch1_out (Wv : Valuation τ sig (Elt F)) (e : (⟨Cert.ReferenceIdeal.S2x3200000, .i32⟩ : BufTy).Contents (Elt F))
    (h3 : Wv (Proc.devRef .tc main_v3) = val_main_v3 (F := F) e) (h6 : Wv (Proc.devRef .tc main_v6) = val_main_v6 (F := F) e)
    (h29 : Wv (Proc.devRef .tc main_v29) = val_main_v29 (F := F) e) :
    StableHlo.after hostOps1 Wv (Proc.devRef .tc main_v43) = prop64 e (Wv (Proc.devRef .tc main_v30)) := by
  after_results_simp
  rw [h3, h6, h29]
  rfl

/-- The same stretch leaves in %44 the first bias as a [1,64] row. -/
theorem stretch1_bias (Wv : Valuation τ sig (Elt F)) :
    StableHlo.after hostOps1 Wv (Proc.devRef .tc main_v44) = shapeCast S1x64 (Wv (Proc.devRef .tc main_arg3)) shapeCasts_S64_S1x64 := by
  after_results_simp
  rfl

/-- The stretch between regions 2 and 3 leaves in %58 the second propagation of whatever %46 held. -/
theorem stretch3_out (Wv : Valuation τ sig (Elt F)) (e : (⟨Cert.ReferenceIdeal.S2x3200000, .i32⟩ : BufTy).Contents (Elt F))
    (h3 : Wv (Proc.devRef .tc main_v3) = val_main_v3 (F := F) e) (h6 : Wv (Proc.devRef .tc main_v6) = val_main_v6 (F := F) e)
    (h29 : Wv (Proc.devRef .tc main_v29) = val_main_v29 (F := F) e) :
    StableHlo.after hostOps3 Wv (Proc.devRef .tc main_v58) = prop1 e (Wv (Proc.devRef .tc main_v46)) := by
  after_results_simp
  rw [h3, h6, h29]
  rfl

/-- The same stretch leaves in %59 the second bias as a [1,1] array. -/
theorem stretch3_bias (Wv : Valuation τ sig (Elt F)) :
    StableHlo.after hostOps3 Wv (Proc.devRef .tc main_v59) = shapeCast S1x1 (Wv (Proc.devRef .tc main_arg5)) shapeCasts_S1_S1x1 := by
  after_results_simp
  rfl

end Cert.KernelIdeal.HostChain

end
-- ==== Proof.Region0.lean ====
/-
  Region 0: the first matrix product.  The grid has 25 points; point t stages rows 4000·t … 4000·t+3999 of
  the [100000,128] left array and the whole [128,64] right array, and writes back the product of the two
  blocks, accumulated from zero, as rows 4000·t … of the [100000,64] result.  A change of float format is
  the identity on the extended reals, so entry (p, q) of a written block is the sum over the contracted
  coordinate k of left(4000·t + p, k) · right(k, q): block t of ONE function of the two arrays, the plain
  row-by-column sums.  The 25 blocks tile the result's rows, so the result array ends holding that function.
-/
import proofs.«171226_j29197187678384_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

/-- The left array's entry in the row of result index `i`, at contracted coordinate `k`. -/
abbrev lrow (i : S100000x64.Idx) (k : Fin 128) : S100000x128.Idx := fun a => match a with
  | ⟨0, _⟩ => ⟨(i 0).val, (i 0).isLt⟩
  | ⟨1, _⟩ => ⟨k.val, k.isLt⟩
/-- The right array's entry in the column of result index `i`, at contracted coordinate `k`. -/
abbrev rcol (i : S100000x64.Idx) (k : Fin 128) : S128x64.Idx := fun a => match a with
  | ⟨0, _⟩ => ⟨k.val, k.isLt⟩
  | ⟨1, _⟩ => ⟨(i 1).val, (i 1).isLt⟩

/-- Rows times columns: entry `i` is the sum over `k` of `x (i 0, k) · w (k, i 1)`. -/
def rowsTimes (x : S100000x128.Idx → EReal) (w : S128x64.Idx → EReal) : S100000x64.Idx → EReal :=
  fun i => ∑ k : Fin 128, x (lrow i k) * w (rcol i k)

/-- The same two index maps inside one staged block of 4000 rows. -/
abbrev blrow (j : S4000x64.Idx) (k : Fin 128) : S4000x128.Idx := fun a => match a with
  | ⟨0, _⟩ => ⟨(j 0).val, (j 0).isLt⟩
  | ⟨1, _⟩ => ⟨k.val, k.isLt⟩
abbrev brcol (j : S4000x64.Idx) (k : Fin 128) : S128x64.Idx := fun a => match a with
  | ⟨0, _⟩ => ⟨k.val, k.isLt⟩
  | ⟨1, _⟩ => ⟨(j 1).val, (j 1).isLt⟩

/-! ## The block product at an entry -/

theorem lhs_0 (j : S4000x64.Idx) (q : dot_S4000x128_S128x64_S4000x64_1_0_0_1_n_n.contr.Idx) :
    (dot_S4000x128_S128x64_S4000x64_1_0_0_1_n_n.lhsIdx j q 0).val = (j 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs_1 (j : S4000x64.Idx) (q : dot_S4000x128_S128x64_S4000x64_1_0_0_1_n_n.contr.Idx) :
    (dot_S4000x128_S128x64_S4000x64_1_0_0_1_n_n.lhsIdx j q 1).val = (q ⟨0, by decide⟩).val :=
  dot_S4000x128_S128x64_S4000x64_1_0_0_1_n_n.lhsIdx_val_of_single rfl j q
theorem rhs_0 (j : S4000x64.Idx) (q : dot_S4000x128_S128x64_S4000x64_1_0_0_1_n_n.contr.Idx) :
    (dot_S4000x128_S128x64_S4000x64_1_0_0_1_n_n.rhsIdx j q 0).val = (q ⟨0, by decide⟩).val :=
  dot_S4000x128_S128x64_S4000x64_1_0_0_1_n_n.rhsIdx_val_of_single rfl j q
theorem rhs_1 (j : S4000x64.Idx) (q : dot_S4000x128_S128x64_S4000x64_1_0_0_1_n_n.contr.Idx) :
    (dot_S4000x128_S128x64_S4000x64_1_0_0_1_n_n.rhsIdx j q 1).val = (j 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- What the body stores, at entry `j` of the block: the sum over the contracted coordinate of the products of
    the two staged blocks' entries (the accumulator starts at zero; the narrowing to bf16 is the identity). -/
theorem pay_apply (x0 : Vec Ideal S4000x128 .f32) (x1 : Vec Ideal S128x64 .f32) (j : S4000x64.Idx) :
    k0_pay1 (F := Ideal) x0 x1 j = ∑ k : Fin 128, x0 (blrow j k) * x1 (brcol j k) := by
  unfold k0_pay1
  show FloatOps.matmul dot_S4000x128_S128x64_S4000x64_1_0_0_1_n_n none (truncf (F := Ideal) .bf16 x0 bitsLt_bf16_f32) (truncf (F := Ideal) .bf16 x1 bitsLt_bf16_f32) (constant (F := Ideal) S4000x64 .f32 0x00000000#32) j = _
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx j ((ValueIdx.contrEquiv1 dot_S4000x128_S128x64_S4000x64_1_0_0_1_n_n 128 rfl rfl).symm k) = blrow j k := funext fun a => Fin.ext (by
    match a with
    | ⟨0, _⟩ => exact lhs_0 _ _
    | ⟨1, _⟩ => exact (lhs_1 _ _).trans hk)
  have er : dot_S4000x128_S128x64_S4000x64_1_0_0_1_n_n.rhsIdx j ((ValueIdx.contrEquiv1 dot_S4000x128_S128x64_S4000x64_1_0_0_1_n_n 128 rfl rfl).symm k) = brcol j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the result window move down the rows with the point,
    the right window stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every one of the 25 row blocks is some point's. -/
theorem idx_onto : ∀ q : Fin 25, ∃ t : Fin cfg0.N, win0_2.index t = ![q.val, 0] :=
  (by decide +kernel : ∀ q : Fin 25, ∃ t : Fin grid0.N, win0_2.index t = ![q.val, 0])

/-- The left window's block at point `t`, at the row of block entry `j`: the left array in the row of the
    array index that entry `j` of the result's block is. -/
theorem read_left (c : Dev nD) (t : Fin cfg0.N) (j : S4000x64.Idx) (k : Fin 128) :
    iblk0 V c 0 t (blrow j k) = V c main_arg0 (lrow (((cfg0.win 2).blk t).view.emb j) k) := by
  obtain ⟨e0, e1, e2, e3, e4, e5⟩ := idx_facts t
  show V c main_arg0 (((cfg0.win 0).blk t).view.emb (blrow j k)) = V c main_arg0 (lrow (((cfg0.win 2).blk t).view.emb j) k)
  refine congrArg (V c main_arg0) (funext fun a => Fin.ext ?_)
  match a with
  | ⟨0, _⟩ => show win0_0.index t (0 : Fin 2) * 4000 + 1 * (j 0).val = win0_2.index t (0 : Fin 2) * 4000 + 1 * (j 0).val; omega
  | ⟨1, _⟩ => show win0_0.index t (1 : Fin 2) * 128 + 1 * k.val = k.val; omega

/-- The right window's block is the whole right array at every point. -/
theorem read_right (c : Dev nD) (t : Fin cfg0.N) (j : S4000x64.Idx) (k : Fin 128) :
    iblk0 V c 1 t (brcol j k) = V c main_arg2 (rcol (((cfg0.win 2).blk t).view.emb j) k) := by
  obtain ⟨e0, e1, e2, e3, e4, e5⟩ := idx_facts t
  show V c main_arg2 (((cfg0.win 1).blk t).view.emb (brcol j k)) = V c main_arg2 (rcol (((cfg0.win 2).blk t).view.emb j) k)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 64 + 1 * (j 1).val = win0_2.index t (1 : Fin 2) * 64 + 1 * (j 1).val; omega

/-- What point `t` writes back is block `t` of the rows-times-columns function of the two arrays. -/
theorem flushed_eq (c : Dev nD) (t : Fin cfg0.N) :
    (dat0 (F := Ideal) V c).flushed 2 t = ((cfg0.win 2).blk t).view.read (Elt Ideal) (rowsTimes (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S4000x128) hz, View.ld_unit_zero (S := S128x64) hz]
  funext j
  show k0_pay1 (F := Ideal) (iblk0 V c 0 t) (iblk0 V c 1 t) j = rowsTimes (V c main_arg0) (V c main_arg2) (((cfg0.win 2).blk t).view.emb j)
  refine (pay_apply (iblk0 V c 0 t) (iblk0 V c 1 t) j).trans ?_
  unfold rowsTimes
  refine Finset.sum_congr rfl fun k _ => ?_
  rw [read_left V c t j k, read_right V c t j k]

/-- An index of the result array is in point `t`'s block iff each coordinate is in the block's range. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v30).slice (win0_2.rect t)).set ↔ _
  rw [View.set_slice_whole, Rect.mem_set_unit]
  exact Iff.rfl

/-- Row `r` of the result lies in the block of point `r / 4000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The result array after the region: rows of the left array times columns of the right, whatever the
    contents `V` the region is entered at. -/
theorem value (c : Dev nD) :
    (dat0 (F := Ideal) V c).arrAt 2 cfg0.N = rowsTimes (V c main_arg0) (V c main_arg2) :=
  (dat0 (F := Ideal) V c).arrAt_eq_of_cover 2 (rowsTimes (V c main_arg0) (V c main_arg2)) (fun t _ => flushed_eq V c t) cover

end Cert.KernelIdeal.Region0

end
-- ==== Proof.Region1.lean ====
/-
  Region 1: bias and rectifier.  Point t stages rows 4000·t … 4000·t+3999 of the [100000,64] array and the
  whole [1,64] bias row, and writes back max(x + b, 0) entry by entry, the bias broadcast down the rows, as
  the same rows of the [100000,64] result.  So entry (p, q) of block t is max(x(4000·t + p, q) + b(0, q), 0):
  block t of ONE function of the two arrays, and the 25 blocks tile the result's rows.
-/
import proofs.«171226_j29197187678384_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

/-- The bias row's entry under column `i 1`. -/
abbrev brow (i : S100000x64.Idx) : S1x64.Idx := fun a => match a with
  | ⟨0, _⟩ => ⟨0, Nat.one_pos⟩
  | ⟨1, _⟩ => ⟨(i 1).val, (i 1).isLt⟩

/-- Bias, then the rectifier: entry `i` is `max (a i + b (0, i 1)) 0`, the zero as the kernel's literal. -/
def biasRelu (a : FVec Ideal S100000x64 .f32) (b : FVec Ideal S1x64 .f32) : FVec Ideal S100000x64 .f32 :=
  fun i => FloatOps.maximumf (FloatOps.addf (a i) (b (brow i))) (FloatOps.ofBits .f32 0x00000000#32)

/-- The same bias entry from inside a staged block of 4000 rows. -/
abbrev bbrow (j : S4000x64.Idx) : S1x64.Idx := fun a => match a with
  | ⟨0, _⟩ => ⟨0, Nat.one_pos⟩
  | ⟨1, _⟩ => ⟨(j 1).val, (j 1).isLt⟩

/-- What the body stores, at entry `j` of the block (the two shape casts are of a shape to itself). -/
theorem pay_apply (x0 : Vec Ideal S4000x64 .f32) (x1 : Vec Ideal S1x64 .f32) (j : S4000x64.Idx) :
    k1_pay1 (F := Ideal) x0 x1 j = FloatOps.maximumf (FloatOps.addf (x0 j) (x1 (bbrow j))) (FloatOps.ofBits .f32 0x00000000#32) := by
  unfold k1_pay1
  simp only [shapeCast_self]
  show FloatOps.maximumf (F := Ideal) (φ := .f32) (FloatOps.addf (F := Ideal) (φ := .f32) (x0 j) (broadcastTo S4000x64 x1 broadcasts_S1x64_S4000x64 j)) (FloatOps.ofBits .f32 0x00000000#32) = _
  rw [broadcastTo_apply x1 broadcasts_S1x64_S4000x64 j (bbrow j) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the result move down the rows with the point, the bias stays. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 24
    ∧ win1_2.index t (1 : Fin 2) = 0 :=
  (by decide +kernel : ∀ t : Fin grid1.N, _)

/-- Every one of the 25 row blocks is some point's. -/
theorem idx_onto : ∀ q : Fin 25, ∃ t : Fin cfg1.N, win1_2.index t = ![q.val, 0] :=
  (by decide +kernel : ∀ q : Fin 25, ∃ t : Fin grid1.N, win1_2.index t = ![q.val, 0])

/-- The input window's block at point `t` is the input array where the result's block is. -/
theorem read_in (c : Dev nD) (t : Fin cfg1.N) (j : S4000x64.Idx) :
    iblk1 V c 0 t j = V c main_v43 (((cfg1.win 2).blk t).view.emb j) := by
  obtain ⟨e0, e1, e2, e3, e4, e5⟩ := idx_facts t
  show V c main_v43 (((cfg1.win 0).blk t).view.emb j) = V c main_v43 (((cfg1.win 2).blk t).view.emb j)
  refine congrArg (V c main_v43) (funext fun a => Fin.ext ?_)
  match a with
  | ⟨0, _⟩ => show win1_0.index t (0 : Fin 2) * 4000 + 1 * (j 0).val = win1_2.index t (0 : Fin 2) * 4000 + 1 * (j 0).val; omega
  | ⟨1, _⟩ => show win1_0.index t (1 : Fin 2) * 64 + 1 * (j 1).val = win1_2.index t (1 : Fin 2) * 64 + 1 * (j 1).val; omega

/-- The bias window's block is the whole bias row at every point. -/
theorem read_bias (c : Dev nD) (t : Fin cfg1.N) (j : S4000x64.Idx) :
    iblk1 V c 1 t (bbrow j) = V c main_v44 (brow (((cfg1.win 2).blk t).view.emb j)) := by
  obtain ⟨e0, e1, e2, e3, e4, e5⟩ := idx_facts t
  show V c main_v44 (((cfg1.win 1).blk t).view.emb (bbrow j)) = V c main_v44 (brow (((cfg1.win 2).blk t).view.emb j))
  refine congrArg (V c main_v44) (funext fun a => Fin.ext ?_)
  match a with
  | ⟨0, _⟩ => show win1_1.index t (0 : Fin 2) * 1 + 1 * 0 = 0; omega
  | ⟨1, _⟩ => show win1_1.index t (1 : Fin 2) * 64 + 1 * (j 1).val = win1_2.index t (1 : Fin 2) * 64 + 1 * (j 1).val; omega

/-- What point `t` writes back is block `t` of bias-then-rectifier of the two arrays. -/
theorem flushed_eq (c : Dev nD) (t : Fin cfg1.N) :
    (dat1 (F := Ideal) V c).flushed 2 t = ((cfg1.win 2).blk t).view.read (Elt Ideal) (biasRelu (V c main_v43) (V c main_v44)) := by
  show (cfg1.win 2).cut (grid1.coords t) ((dat1 (F := Ideal) V c).after 2 t) = _
  rw [after1_2]
  unfold out1_2
  rw [View.canon_unit_zero hz]
  simp only [View.ld_unit_zero (S := S4000x64) hz, View.ld_unit_zero (S := S1x64) hz]
  funext j
  show k1_pay1 (F := Ideal) (iblk1 V c 0 t) (iblk1 V c 1 t) j = biasRelu (V c main_v43) (V c main_v44) (((cfg1.win 2).blk t).view.emb j)
  refine (pay_apply (iblk1 V c 0 t) (iblk1 V c 1 t) j).trans ?_
  unfold biasRelu
  rw [read_in V c t j, read_bias V c t j]

/-- An index of the result array is in point `t`'s block iff each coordinate is in the block's range. -/
theorem mem_blk (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v45).slice (win1_2.rect t)).set ↔ _
  rw [View.set_slice_whole, Rect.mem_set_unit]
  exact Iff.rfl

/-- Row `r` of the result lies in the block of point `r / 4000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 64 ≤ (i 1).val ∧ (i 1).val < win1_2.index t (1 : Fin 2) * 64 + 64; omega

/-- The result array after the region, whatever the contents `V` the region is entered at. -/
theorem value (c : Dev nD) :
    (dat1 (F := Ideal) V c).arrAt 2 cfg1.N = biasRelu (V c main_v43) (V c main_v44) :=
  (dat1 (F := Ideal) V c).arrAt_eq_of_cover 2 (biasRelu (V c main_v43) (V c main_v44)) (fun t _ => flushed_eq V c t) cover

end Cert.KernelIdeal.Region1

end
-- ==== Proof.Region2.lean ====
/-
  Region 2: the second matrix product.  Point t stages rows 4000·t … 4000·t+3999 of the [100000,64] left array
  and the whole [64,1] right array, and writes back the product of the two blocks, accumulated from zero, as
  rows 4000·t … of the [100000,1] result.  The shape cast is of a shape to itself and the narrowing to bf16 is
  the identity on the extended reals, so entry (p, 0) of a written block is the sum over k of
  left(4000·t + p, k) · right(k, 0): block t of the plain row-by-column sums, and the 25 blocks tile the rows.
-/
import proofs.«171226_j29197187678384_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

/-- The left array's entry in the row of result index `i`, at contracted coordinate `k`. -/
abbrev lrow (i : S100000x1.Idx) (k : Fin 64) : S100000x64.Idx := fun a => match a with
  | ⟨0, _⟩ => ⟨(i 0).val, (i 0).isLt⟩
  | ⟨1, _⟩ => ⟨k.val, k.isLt⟩
/-- The right array's entry in the column of result index `i`, at contracted coordinate `k`. -/
abbrev rcol (i : S100000x1.Idx) (k : Fin 64) : S64x1.Idx := fun a => match a with
  | ⟨0, _⟩ => ⟨k.val, k.isLt⟩
  | ⟨1, _⟩ => ⟨(i 1).val, (i 1).isLt⟩

/-- Rows times the one column: entry `i` is the sum over `k` of `h (i 0, k) · w (k, i 1)`. -/
def rowsTimes (h : S100000x64.Idx → EReal) (w : S64x1.Idx → EReal) : S100000x1.Idx → EReal :=
  fun i => ∑ k : Fin 64, h (lrow i k) * w (rcol i k)

/-- The same two index maps inside one staged block of 4000 rows. -/
abbrev blrow (j : S4000x1.Idx) (k : Fin 64) : S4000x64.Idx := fun a => match a with
  | ⟨0, _⟩ => ⟨(j 0).val, (j 0).isLt⟩
  | ⟨1, _⟩ => ⟨k.val, k.isLt⟩
abbrev brcol (j : S4000x1.Idx) (k : Fin 64) : S64x1.Idx := fun a => match a with
  | ⟨0, _⟩ => ⟨k.val, k.isLt⟩
  | ⟨1, _⟩ => ⟨(j 1).val, (j 1).isLt⟩

/-! ## The block product at an entry -/

theorem lhs_0 (j : S4000x1.Idx) (q : dot_S4000x64_S64x1_S4000x1_1_0_0_1_n_n.contr.Idx) :
    (dot_S4000x64_S64x1_S4000x1_1_0_0_1_n_n.lhsIdx j q 0).val = (j 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs_1 (j : S4000x1.Idx) (q : dot_S4000x64_S64x1_S4000x1_1_0_0_1_n_n.contr.Idx) :
    (dot_S4000x64_S64x1_S4000x1_1_0_0_1_n_n.lhsIdx j q 1).val = (q ⟨0, by decide⟩).val :=
  dot_S4000x64_S64x1_S4000x1_1_0_0_1_n_n.lhsIdx_val_of_single rfl j q
theorem rhs_0 (j : S4000x1.Idx) (q : dot_S4000x64_S64x1_S4000x1_1_0_0_1_n_n.contr.Idx) :
    (dot_S4000x64_S64x1_S4000x1_1_0_0_1_n_n.rhsIdx j q 0).val = (q ⟨0, by decide⟩).val :=
  dot_S4000x64_S64x1_S4000x1_1_0_0_1_n_n.rhsIdx_val_of_single rfl j q
theorem rhs_1 (j : S4000x1.Idx) (q : dot_S4000x64_S64x1_S4000x1_1_0_0_1_n_n.contr.Idx) :
    (dot_S4000x64_S64x1_S4000x1_1_0_0_1_n_n.rhsIdx j q 1).val = (j 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- What the body stores, at entry `j` of the block: the sum over the contracted coordinate of the products of
    the two staged blocks' entries. -/
theorem pay_apply (x0 : Vec Ideal S4000x64 .f32) (x1 : Vec Ideal S64x1 .f32) (j : S4000x1.Idx) :
    k2_pay1 (F := Ideal) x0 x1 j = ∑ k : Fin 64, x0 (blrow j k) * x1 (brcol j k) := by
  unfold k2_pay1
  simp only [shapeCast_self]
  show FloatOps.matmul dot_S4000x64_S64x1_S4000x1_1_0_0_1_n_n none (truncf (F := Ideal) .bf16 x0 bitsLt_bf16_f32) (truncf (F := Ideal) .bf16 x1 bitsLt_bf16_f32) (constant (F := Ideal) S4000x1 .f32 0x00000000#32) j = _
  rw [Ideal.matmul_constant_zero_apply, ← Equiv.sum_comp (ValueIdx.contrEquiv1 dot_S4000x64_S64x1_S4000x1_1_0_0_1_n_n 64 rfl rfl).symm]
  refine Finset.sum_congr rfl fun k _ => ?_
  have hk := ValueIdx.contrEquiv1_symm_val dot_S4000x64_S64x1_S4000x1_1_0_0_1_n_n 64 rfl rfl k
  have el : dot_S4000x64_S64x1_S4000x1_1_0_0_1_n_n.lhsIdx j ((ValueIdx.contrEquiv1 dot_S4000x64_S64x1_S4000x1_1_0_0_1_n_n 64 rfl rfl).symm k) = blrow j k := funext fun a => Fin.ext (by
    match a with
    | ⟨0, _⟩ => exact lhs_0 _ _
    | ⟨1, _⟩ => exact (lhs_1 _ _).trans hk)
  have er : dot_S4000x64_S64x1_S4000x1_1_0_0_1_n_n.rhsIdx j ((ValueIdx.contrEquiv1 dot_S4000x64_S64x1_S4000x1_1_0_0_1_n_n 64 rfl rfl).symm k) = brcol j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left window and the result window move down the rows with the point,
    the right window stays. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 24
    ∧ win2_2.index t (1 : Fin 2) = 0 :=
  (by decide +kernel : ∀ t : Fin grid2.N, _)

/-- Every one of the 25 row blocks is some point's. -/
theorem idx_onto : ∀ q : Fin 25, ∃ t : Fin cfg2.N, win2_2.index t = ![q.val, 0] :=
  (by decide +kernel : ∀ q : Fin 25, ∃ t : Fin grid2.N, win2_2.index t = ![q.val, 0])

/-- The left window's block at point `t`, in the row of block entry `j`, is the left array in the row of the
    array index that entry `j` of the result's block is. -/
theorem read_left (c : Dev nD) (t : Fin cfg2.N) (j : S4000x1.Idx) (k : Fin 64) :
    iblk2 V c 0 t (blrow j k) = V c main_v45 (lrow (((cfg2.win 2).blk t).view.emb j) k) := by
  obtain ⟨e0, e1, e2, e3, e4, e5⟩ := idx_facts t
  show V c main_v45 (((cfg2.win 0).blk t).view.emb (blrow j k)) = V c main_v45 (lrow (((cfg2.win 2).blk t).view.emb j) k)
  refine congrArg (V c main_v45) (funext fun a => Fin.ext ?_)
  match a with
  | ⟨0, _⟩ => show win2_0.index t (0 : Fin 2) * 4000 + 1 * (j 0).val = win2_2.index t (0 : Fin 2) * 4000 + 1 * (j 0).val; omega
  | ⟨1, _⟩ => show win2_0.index t (1 : Fin 2) * 64 + 1 * k.val = k.val; omega

/-- The right window's block is the whole right array at every point. -/
theorem read_right (c : Dev nD) (t : Fin cfg2.N) (j : S4000x1.Idx) (k : Fin 64) :
    iblk2 V c 1 t (brcol j k) = V c main_arg4 (rcol (((cfg2.win 2).blk t).view.emb j) k) := by
  obtain ⟨e0, e1, e2, e3, e4, e5⟩ := idx_facts t
  show V c main_arg4 (((cfg2.win 1).blk t).view.emb (brcol j k)) = V c main_arg4 (rcol (((cfg2.win 2).blk t).view.emb j) k)
  refine congrArg (V c main_arg4) (funext fun a => Fin.ext ?_)
  match a with
  | ⟨0, _⟩ => show win2_1.index t (0 : Fin 2) * 64 + 1 * k.val = k.val; omega
  | ⟨1, _⟩ => show win2_1.index t (1 : Fin 2) * 1 + 1 * (j 1).val = win2_2.index t (1 : Fin 2) * 1 + 1 * (j 1).val; omega

/-- What point `t` writes back is block `t` of the rows-times-column function of the two arrays. -/
theorem flushed_eq (c : Dev nD) (t : Fin cfg2.N) :
    (dat2 (F := Ideal) V c).flushed 2 t = ((cfg2.win 2).blk t).view.read (Elt Ideal) (rowsTimes (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S4000x64) hz, View.ld_unit_zero (S := S64x1) hz]
  funext j
  show k2_pay1 (F := Ideal) (iblk2 V c 0 t) (iblk2 V c 1 t) j = rowsTimes (V c main_v45) (V c main_arg4) (((cfg2.win 2).blk t).view.emb j)
  refine (pay_apply (iblk2 V c 0 t) (iblk2 V c 1 t) j).trans ?_
  unfold rowsTimes
  refine Finset.sum_congr rfl fun k _ => ?_
  rw [read_left V c t j k, read_right V c t j k]

/-- An index of the result array is in point `t`'s block iff each coordinate is in the block's range. -/
theorem mem_blk (t : Fin cfg2.N) (i : S100000x1.Idx) :
    i ∈ ((cfg2.win 2).blk t).view.set ↔ ∀ a : Fin 2, win2_2.index t a * S4000x1.size a ≤ (i a).val ∧ (i a).val < win2_2.index t a * S4000x1.size a + S4000x1.size a := by
  show i ∈ ((View.whole main_v46).slice (win2_2.rect t)).set ↔ _
  rw [View.set_slice_whole, Rect.mem_set_unit]
  exact Iff.rfl

/-- Row `r` of the result lies in the block of point `r / 4000`. -/
theorem cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  obtain ⟨t, ht⟩ := idx_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 1 ≤ (i 1).val ∧ (i 1).val < win2_2.index t (1 : Fin 2) * 1 + 1; omega

/-- The result array after the region, whatever the contents `V` the region is entered at. -/
theorem value (c : Dev nD) :
    (dat2 (F := Ideal) V c).arrAt 2 cfg2.N = rowsTimes (V c main_v45) (V c main_arg4) :=
  (dat2 (F := Ideal) V c).arrAt_eq_of_cover 2 (rowsTimes (V c main_v45) (V c main_arg4)) (fun t _ => flushed_eq V c t) cover

end Cert.KernelIdeal.Region2

end
-- ==== Proof.Region3.lean ====
/-
  Region 3: bias and the logistic function.  Point t stages rows 4000·t … 4000·t+3999 of the [100000,1] array and
  the [1,1] bias, and writes back logistic(x + b) entry by entry as the same rows of the [100000,1] result.  So
  entry (p, 0) of block t is logistic(x(4000·t + p, 0) + b(0, 0)): block t of ONE function of the two arrays,
  and the 25 blocks tile the result's rows.
-/
import proofs.«171226_j29197187678384_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat Cfg Window)

/-- The one bias entry. -/
abbrev bone : S1x1.Idx := fun a => match a with
  | ⟨0, _⟩ => ⟨0, Nat.one_pos⟩
  | ⟨1, _⟩ => ⟨0, Nat.one_pos⟩

/-- Bias, then the logistic function: entry `i` is `logistic (a i + b (0, 0))`. -/
def biasLogistic (a : FVec Ideal S100000x1 .f32) (b : FVec Ideal S1x1 .f32) : FVec Ideal S100000x1 .f32 :=
  fun i => FloatOps.logistic (FloatOps.addf (a i) (b bone))

/-- What the body stores, at entry `j` of the block (the two shape casts are of a shape to itself). -/
theorem pay_apply (x0 : Vec Ideal S4000x1 .f32) (x1 : Vec Ideal S1x1 .f32) (j : S4000x1.Idx) :
    k3_pay1 (F := Ideal) x0 x1 j = FloatOps.logistic (FloatOps.addf (x0 j) (x1 bone)) := by
  unfold k3_pay1
  simp only [shapeCast_self]
  show FloatOps.logistic (F := Ideal) (φ := .f32) (FloatOps.addf (F := Ideal) (φ := .f32) (x0 j) (broadcastTo S4000x1 x1 broadcasts_S1x1_S4000x1 j)) = _
  rw [broadcastTo_apply x1 broadcasts_S1x1_S4000x1 j bone (fun a => match a with
    | ⟨0, _⟩ => by show 0 = if (1 : Nat) = 1 then 0 else (j 0).val; rw [if_pos rfl]
    | ⟨1, _⟩ => by show 0 = if (1 : Nat) = 1 then 0 else (j 1).val; rw [if_pos rfl])]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the result move down the rows with the point, the bias stays. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 24
    ∧ win3_2.index t (1 : Fin 2) = 0 :=
  (by decide +kernel : ∀ t : Fin grid3.N, _)

/-- Every one of the 25 row blocks is some point's. -/
theorem idx_onto : ∀ q : Fin 25, ∃ t : Fin cfg3.N, win3_2.index t = ![q.val, 0] :=
  (by decide +kernel : ∀ q : Fin 25, ∃ t : Fin grid3.N, win3_2.index t = ![q.val, 0])

/-- The input window's block at point `t` is the input array where the result's block is. -/
theorem read_in (c : Dev nD) (t : Fin cfg3.N) (j : S4000x1.Idx) :
    iblk3 V c 0 t j = V c main_v58 (((cfg3.win 2).blk t).view.emb j) := by
  obtain ⟨e0, e1, e2, e3, e4, e5⟩ := idx_facts t
  show V c main_v58 (((cfg3.win 0).blk t).view.emb j) = V c main_v58 (((cfg3.win 2).blk t).view.emb j)
  refine congrArg (V c main_v58) (funext fun a => Fin.ext ?_)
  match a with
  | ⟨0, _⟩ => show win3_0.index t (0 : Fin 2) * 4000 + 1 * (j 0).val = win3_2.index t (0 : Fin 2) * 4000 + 1 * (j 0).val; omega
  | ⟨1, _⟩ => show win3_0.index t (1 : Fin 2) * 1 + 1 * (j 1).val = win3_2.index t (1 : Fin 2) * 1 + 1 * (j 1).val; omega

/-- The bias window's block is the whole bias at every point. -/
theorem read_bias (c : Dev nD) (t : Fin cfg3.N) :
    iblk3 V c 1 t bone = V c main_v59 bone := by
  obtain ⟨e0, e1, e2, e3, e4, e5⟩ := idx_facts t
  show V c main_v59 (((cfg3.win 1).blk t).view.emb bone) = V c main_v59 bone
  refine congrArg (V c main_v59) (funext fun a => Fin.ext ?_)
  match a with
  | ⟨0, _⟩ => show win3_1.index t (0 : Fin 2) * 1 + 1 * 0 = 0; omega
  | ⟨1, _⟩ => show win3_1.index t (1 : Fin 2) * 1 + 1 * 0 = 0; omega

/-- What point `t` writes back is block `t` of bias-then-logistic of the two arrays. -/
theorem flushed_eq (c : Dev nD) (t : Fin cfg3.N) :
    (dat3 (F := Ideal) V c).flushed 2 t = ((cfg3.win 2).blk t).view.read (Elt Ideal) (biasLogistic (V c main_v58) (V c main_v59)) := by
  show (cfg3.win 2).cut (grid3.coords t) ((dat3 (F := Ideal) V c).after 2 t) = _
  rw [after3_2]
  unfold out3_2
  rw [View.canon_unit_zero hz]
  simp only [View.ld_unit_zero (S := S4000x1) hz, View.ld_unit_zero (S := S1x1) hz]
  funext j
  show k3_pay1 (F := Ideal) (iblk3 V c 0 t) (iblk3 V c 1 t) j = biasLogistic (V c main_v58) (V c main_v59) (((cfg3.win 2).blk t).view.emb j)
  refine (pay_apply (iblk3 V c 0 t) (iblk3 V c 1 t) j).trans ?_
  unfold biasLogistic
  rw [read_in V c t j, read_bias V c t]

/-- An index of the result array is in point `t`'s block iff each coordinate is in the block's range. -/
theorem mem_blk (t : Fin cfg3.N) (i : S100000x1.Idx) :
    i ∈ ((cfg3.win 2).blk t).view.set ↔ ∀ a : Fin 2, win3_2.index t a * S4000x1.size a ≤ (i a).val ∧ (i a).val < win3_2.index t a * S4000x1.size a + S4000x1.size a := by
  show i ∈ ((View.whole main_v60).slice (win3_2.rect t)).set ↔ _
  rw [View.set_slice_whole, Rect.mem_set_unit]
  exact Iff.rfl

/-- Row `r` of the result lies in the block of point `r / 4000`. -/
theorem cover (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  obtain ⟨t, ht⟩ := idx_onto ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 1 ≤ (i 1).val ∧ (i 1).val < win3_2.index t (1 : Fin 2) * 1 + 1; omega

/-- The result array after the region, whatever the contents `V` the region is entered at. -/
theorem value (c : Dev nD) :
    (dat3 (F := Ideal) V c).arrAt 2 cfg3.N = biasLogistic (V c main_v58) (V c main_v59) :=
  (dat3 (F := Ideal) V c).arrAt_eq_of_cover 2 (biasLogistic (V c main_v58) (V c main_v59)) (fun t _ => flushed_eq V c t) cover

end Cert.KernelIdeal.Region3

end
-- ==== Proof.Chain.lean ====
/-
  The kernel's result buffer, boundary by boundary, on the extended reals.  Each pipelined region leaves in its
  result array one whole-array function of its two input arrays; each host stretch between regions is the
  reference's own propagation; so every boundary buffer the next segment reads holds the reference's stage of the
  same name, and the last one, the result, holds the reference's result of the launched arguments.
    region 0   rows of x times columns of W1          = the reference's first dot_general
    stretch    gather, scale, scatter-add              = the reference's first propagation
    region 1   max (· + b1, 0)                         = the reference's add of the broadcast bias, then maximum with 0
    region 2   rows times the column W2                = the reference's second dot_general
    stretch    gather, scale, scatter-add              = the reference's second propagation
    region 3   logistic (· + b2)                       = the reference's 1 / (1 + exp (−(· + b2)))
  The last line is the definition of the logistic function on the extended reals, the word 0x3F800000 being 1.
-/
import proofs.«171226_j29197187678384_1_alg».proof.Proof.Gen.KernelIdeal.Frame
import proofs.«171226_j29197187678384_1_alg».proof.Proof.RefRead
import proofs.«171226_j29197187678384_1_alg».proof.Proof.Kept
import proofs.«171226_j29197187678384_1_alg».proof.Proof.HostChain
import proofs.«171226_j29197187678384_1_alg».proof.Proof.Region0
import proofs.«171226_j29197187678384_1_alg».proof.Proof.Region1
import proofs.«171226_j29197187678384_1_alg».proof.Proof.Region2
import proofs.«171226_j29197187678384_1_alg».proof.Proof.Region3
import Idealize.ShloMosaic.Lib.Pipeline.Value
import Idealize.ShloMosaic.PureOps.Ideal.Laws

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)

open Idealize.ShloMosaic.StableHlo
open Cert.ReferenceIdeal.ReadP

/-! ## The four regions' functions against the reference's operations -/

theorem lrow1_eq (i : S100000x64.Idx) (k : Fin 128) : Region0.lrow i k = lidx_main_v30 i k :=
  funext fun a => Fin.ext (by match a with | ⟨0, _⟩ => rfl | ⟨1, _⟩ => rfl)
theorem rcol1_eq (i : S100000x64.Idx) (k : Fin 128) : Region0.rcol i k = ridx_main_v30 i k :=
  funext fun a => Fin.ext (by match a with | ⟨0, _⟩ => rfl | ⟨1, _⟩ => rfl)

/-- Rows times columns is what the reference's first `dot_general` computes on the extended reals. -/
theorem mm1_eq (x : S100000x128.Idx → EReal) (w : S128x64.Idx → EReal) :
    Region0.rowsTimes x w = val_main_v30 (F := Ideal) x w := by
  funext i
  rw [val_main_v30_apply]
  unfold Region0.rowsTimes
  refine Finset.sum_congr rfl fun k _ => ?_
  rw [lrow1_eq, rcol1_eq]

/-- The reference's second `dot_general` at an entry, for any left operand: the sum over the contracted coordinate. -/
theorem dot2_apply (y : FVec Ideal Cert.ReferenceIdeal.S100000x64 .f32) (x4 : FVec Ideal Cert.ReferenceIdeal.S64x1 .f32) (i : Cert.ReferenceIdeal.S100000x1.Idx) :
    Host.dotGeneral (F := Ideal) (φ₁ := .f32) (φ₂ := .f32) Cert.ReferenceIdeal.dot_S100000x64_S64x1_S100000x1_1_0_0_1_n_n none y x4 i = ∑ k : Fin 64, y (lidx_main_v48 i k) * x4 (ridx_main_v48 i k) := by
  simp only [Host.dotGeneral]
  rw [Ideal.dotGeneral_apply, ← Equiv.sum_comp (ValueIdx.contrEquiv1 Cert.ReferenceIdeal.dot_S100000x64_S64x1_S100000x1_1_0_0_1_n_n 64 rfl rfl).symm]
  refine Finset.sum_congr rfl fun k _ => ?_
  have hk := ValueIdx.contrEquiv1_symm_val Cert.ReferenceIdeal.dot_S100000x64_S64x1_S100000x1_1_0_0_1_n_n 64 rfl rfl k
  have el : Cert.ReferenceIdeal.dot_S100000x64_S64x1_S100000x1_1_0_0_1_n_n.lhsIdx i ((ValueIdx.contrEquiv1 Cert.ReferenceIdeal.dot_S100000x64_S64x1_S100000x1_1_0_0_1_n_n 64 rfl rfl).symm k) = lidx_main_v48 i k := funext fun a => Fin.ext (by
    match a with
    | ⟨0, _⟩ => exact lhs_main_v48_0 _ _
    | ⟨1, _⟩ => exact (lhs_main_v48_1 _ _).trans hk)
  have er : Cert.ReferenceIdeal.dot_S100000x64_S64x1_S100000x1_1_0_0_1_n_n.rhsIdx i ((ValueIdx.contrEquiv1 Cert.ReferenceIdeal.dot_S100000x64_S64x1_S100000x1_1_0_0_1_n_n 64 rfl rfl).symm k) = ridx_main_v48 i k := funext fun a => Fin.ext (by
    match a with
    | ⟨0, _⟩ => exact (rhs_main_v48_0 _ _).trans hk
    | ⟨1, _⟩ => exact rhs_main_v48_1 _ _)
  rw [el, er]

theorem lrow2_eq (i : S100000x1.Idx) (k : Fin 64) : Region2.lrow i k = lidx_main_v48 i k :=
  funext fun a => Fin.ext (by match a with | ⟨0, _⟩ => rfl | ⟨1, _⟩ => rfl)
theorem rcol2_eq (i : S100000x1.Idx) (k : Fin 64) : Region2.rcol i k = ridx_main_v48 i k :=
  funext fun a => Fin.ext (by match a with | ⟨0, _⟩ => rfl | ⟨1, _⟩ => rfl)

/-- Rows times the one column is what the reference's second `dot_general` computes. -/
theorem mm2_eq (h : S100000x64.Idx → EReal) (w : S64x1.Idx → EReal) :
    Region2.rowsTimes h w = Host.dotGeneral (F := Ideal) (φ₁ := .f32) (φ₂ := .f32) Cert.ReferenceIdeal.dot_S100000x64_S64x1_S100000x1_1_0_0_1_n_n none h w := by
  funext i
  rw [dot2_apply]
  unfold Region2.rowsTimes
  refine Finset.sum_congr rfl fun k _ => ?_
  rw [lrow2_eq, rcol2_eq]

/-- The kernel reshapes the bias to a [1,64] row and broadcasts it in the body; the reference broadcasts it twice on the
    host: under column `q` both read `b q`.  The zero of the maximum is the same word on both sides. -/
theorem relu_eq (a : FVec Ideal S100000x64 .f32) (b : FVec Ideal S64 .f32) :
    Region1.biasRelu a (shapeCast S1x64 b shapeCasts_S64_S1x64) = maximumf (addf a (val_main_v45 (F := Ideal) b)) (val_main_call1_v0 (F := Ideal)) := by
  funext i
  unfold Region1.biasRelu
  show FloatOps.maximumf (F := Ideal) (φ := .f32) (FloatOps.addf (F := Ideal) (φ := .f32) (a i) (shapeCast S1x64 b shapeCasts_S64_S1x64 (Region1.brow i))) (FloatOps.ofBits .f32 0x00000000#32)
    = FloatOps.maximumf (F := Ideal) (φ := .f32) (FloatOps.addf (F := Ideal) (φ := .f32) (a i) (val_main_v45 (F := Ideal) b i)) (val_main_call1_v0 (F := Ideal) i)
  rw [val_main_v45_apply, val_main_v44_apply, val_main_call1_v0_apply, val_main_call1_cst_apply,
    shapeCast_apply b shapeCasts_S64_S1x64 (Region1.brow i) (idx_main_v44 (idx_main_v45 i)) (by
      rw [Shape.rowMajor_val_one, Shape.rowMajor_val_two]
      show (i 1).val = 0 * 64 + (i 1).val
      omega)]

/-- The word 0x3F800000 is the number one. -/
theorem one_f32 : Ideal.ofBits .f32 0x3F800000#32 = 1 := by simp [Ideal.ofBits, Ideal.ieee, -EReal.coe_mul]; norm_num

/-- The kernel's one logistic operation against the reference's negate, exponential, add one, divide one by: the
    logistic function on the extended reals IS that expression; the bias is read at its one entry on both sides. -/
theorem logistic_eq (a : FVec Ideal S100000x1 .f32) (b : FVec Ideal S1 .f32) :
    Region3.biasLogistic a (shapeCast S1x1 b shapeCasts_S1_S1x1)
      = Host.divf (val_main_v68 (F := Ideal)) (addf (val_main_v66 (F := Ideal)) (Host.exp (Host.negf (addf a (val_main_v62 (F := Ideal) b))))) := by
  funext i
  unfold Region3.biasLogistic
  show FloatOps.logistic (F := Ideal) (φ := .f32) (FloatOps.addf (F := Ideal) (φ := .f32) (a i) (shapeCast S1x1 b shapeCasts_S1_S1x1 Region3.bone))
    = FloatOps.hostDivf (F := Ideal) (φ := .f32) (val_main_v68 (F := Ideal) i) (FloatOps.addf (F := Ideal) (φ := .f32) (val_main_v66 (F := Ideal) i)
        (FloatOps.hostUnary (F := Ideal) (φ := .f32) .exp (FloatOps.hostNegf (F := Ideal) (φ := .f32) (FloatOps.addf (F := Ideal) (φ := .f32) (a i) (val_main_v62 (F := Ideal) b i)))))
  rw [val_main_v68_apply, val_main_cst_13_apply, val_main_v66_apply, val_main_cst_12_apply, val_main_v62_apply, val_main_v61_apply,
    shapeCast_apply b shapeCasts_S1_S1x1 Region3.bone (idx_main_v61 (idx_main_v62 i)) (by
      rw [Shape.rowMajor_val_one, Shape.rowMajor_val_two]
      show 0 = 0 * 1 + 0
      omega)]
  rw [Ideal.ofBits_def, one_f32]
  rfl

/-! ## The boundary buffers -/

variable (m : (ℓ : Loc nD τ sig) → Buf (Elt Ideal) ℓ) (ρ : Dev nD → PrngReg) (c : Dev nD)

theorem W4_row : W4 m ρ c (Proc.devRef .tc main_v3) = val_main_v3 (F := Ideal) (m ((c : Thread nD τ).loc main_arg1)) :=
  (W4_of_ne m ρ c main_v3 (by decide)).trans (HostChain.row_eq m ρ c)
theorem W4_col : W4 m ρ c (Proc.devRef .tc main_v6) = val_main_v6 (F := Ideal) (m ((c : Thread nD τ).loc main_arg1)) :=
  (W4_of_ne m ρ c main_v6 (by decide)).trans (HostChain.col_eq m ρ c)
theorem W4_norm : W4 m ρ c (Proc.devRef .tc main_v29) = val_main_v29 (F := Ideal) (m ((c : Thread nD τ).loc main_arg1)) :=
  (W4_of_ne m ρ c main_v29 (by decide)).trans (HostChain.norm_eq m ρ c)

/-- After region 0 its result array holds the reference's first product of the launched arguments. -/
theorem h1pre_eq : W4 m ρ c (Proc.devRef .tc main_v30) = val_main_v30 (F := Ideal) (m ((c : Thread nD τ).loc main_arg0)) (m ((c : Thread nD τ).loc main_arg2)) := by
  refine (W4_arr m ρ c 2).trans ((Region0.value (V3 m ρ) c).trans ?_)
  show Region0.rowsTimes (W3 m ρ c (Proc.devRef .tc main_arg0)) (W3 m ρ c (Proc.devRef .tc main_arg2)) = _
  rw [Kept.W3_arg0, Kept.W3_arg2]
  exact mm1_eq _ _

/-- Region 1 is entered with the propagated first layer at the reference's value. -/
theorem out1_eq : W5 m ρ c (Proc.devRef .tc main_v43) = val_main_v43 (F := Ideal) (m ((c : Thread nD τ).loc main_arg0)) (m ((c : Thread nD τ).loc main_arg1)) (m ((c : Thread nD τ).loc main_arg2)) := by
  show StableHlo.after hostOps1 (W4 m ρ c) (Proc.devRef .tc main_v43) = _
  rw [HostChain.stretch1_out (W4 m ρ c) (m ((c : Thread nD τ).loc main_arg1)) (W4_row m ρ c) (W4_col m ρ c) (W4_norm m ρ c), h1pre_eq, HostChain.val_v43_eq]

/-- … and with the first bias as a [1,64] row. -/
theorem bias1_eq : W5 m ρ c (Proc.devRef .tc main_v44) = shapeCast S1x64 (m ((c : Thread nD τ).loc main_arg3)) shapeCasts_S64_S1x64 := by
  show StableHlo.after hostOps1 (W4 m ρ c) (Proc.devRef .tc main_v44) = _
  rw [HostChain.stretch1_bias, Kept.W4_arg3]

/-- After region 1 its result array holds the reference's first layer after the rectifier. -/
theorem h1_eq : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Region1.value (V5 m ρ) c).trans ?_)
  show Region1.biasRelu (W5 m ρ c (Proc.devRef .tc main_v43)) (W5 m ρ c (Proc.devRef .tc main_v44)) = _
  rw [out1_eq, bias1_eq]
  exact relu_eq _ _

/-- After region 2 its result array holds the reference's second product. -/
theorem h2pre_eq : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Region2.value (V6 m ρ) c).trans ?_)
  show Region2.rowsTimes (W6 m ρ c (Proc.devRef .tc main_v45)) (W6 m ρ c (Proc.devRef .tc main_arg4)) = _
  rw [h1_eq, Kept.W6_arg4]
  exact mm2_eq _ _

theorem W7_row : W7 m ρ c (Proc.devRef .tc main_v3) = val_main_v3 (F := Ideal) (m ((c : Thread nD τ).loc main_arg1)) :=
  (W7_of_ne m ρ c main_v3 (by decide)).trans ((W6_of_ne m ρ c main_v3 (by decide)).trans (by
    show StableHlo.after hostOps1 (W4 m ρ c) (Proc.devRef .tc main_v3) = _
    after_results_simp
    exact W4_row m ρ c))
theorem W7_col : W7 m ρ c (Proc.devRef .tc main_v6) = val_main_v6 (F := Ideal) (m ((c : Thread nD τ).loc main_arg1)) :=
  (W7_of_ne m ρ c main_v6 (by decide)).trans ((W6_of_ne m ρ c main_v6 (by decide)).trans (by
    show StableHlo.after hostOps1 (W4 m ρ c) (Proc.devRef .tc main_v6) = _
    after_results_simp
    exact W4_col m ρ c))
theorem W7_norm : W7 m ρ c (Proc.devRef .tc main_v29) = val_main_v29 (F := Ideal) (m ((c : Thread nD τ).loc main_arg1)) :=
  (W7_of_ne m ρ c main_v29 (by decide)).trans ((W6_of_ne m ρ c main_v29 (by decide)).trans (by
    show StableHlo.after hostOps1 (W4 m ρ c) (Proc.devRef .tc main_v29) = _
    after_results_simp
    exact W4_norm m ρ c))

/-- Region 3 is entered with the propagated second layer at the reference's value. -/
theorem out2_eq : W8 m ρ c (Proc.devRef .tc main_v58) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W7 m ρ c) (Proc.devRef .tc main_v58) = _
  rw [HostChain.stretch3_out (W7 m ρ c) (m ((c : Thread nD τ).loc main_arg1)) (W7_row m ρ c) (W7_col m ρ c) (W7_norm m ρ c), h2pre_eq, HostChain.val_v60_eq]

/-- … and with the second bias as a [1,1] array. -/
theorem bias2_eq : W8 m ρ c (Proc.devRef .tc main_v59) = shapeCast S1x1 (m ((c : Thread nD τ).loc main_arg5)) shapeCasts_S1_S1x1 := by
  show StableHlo.after hostOps3 (W7 m ρ c) (Proc.devRef .tc main_v59) = _
  rw [HostChain.stretch3_bias, Kept.W7_arg5]

/-- THE RESULT: after region 3 the result buffer holds the reference's result of the launched arguments. -/
theorem result_eq : W9 m ρ c (Proc.devRef .tc main_v60)
    = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Region3.value (V8 m ρ) c).trans ?_)
  show Region3.biasLogistic (W8 m ρ c (Proc.devRef .tc main_v58)) (W8 m ρ c (Proc.devRef .tc main_v59)) = _
  rw [out2_eq, bias2_eq]
  exact logistic_eq _ _

end Cert.KernelIdeal.Chain

end
-- ==== Proof.lean ====
/-
  Two graph-convolution layers over 100000 nodes and 3200000 edges (self loops appended): per layer a dense
  product, then a propagation along the edges (gather the source rows, scale by the symmetric normalisation
  weight of the edge, add into the destination rows), then a bias and an activation: the rectifier after the
  first layer, the logistic function after the second.  The kernel runs the two products and the two
  bias-and-activation steps as four pipelined regions over blocks of 4000 rows and leaves the edge work to
  host operations; the reference is host operations throughout.

  On the extended reals the two programs compute one function of the arguments, entry by entry:
  a product accumulated from zero over a staged block of rows, its operands narrowed to bf16 (the identity
  here), is the plain row-by-column sum the host's dot_general is; the host operations on the edge list are the
  same operations in both programs; the rectifier is the maximum with the same zero word; and the logistic
  function on the extended reals is 1 / (1 + exp (−x)) by definition, which the reference spells out.
  No law that needs finite operands is used: the precondition is not opened.

  The three frames: the two kernels' are the generated frame certificates; the reference's is its run with the
  result dropped.  The idealization rewrote nothing, so `preserves` is trivial.
-/
import proofs.«171226_j29197187678384_1_alg».proof.Defs
import proofs.«171226_j29197187678384_1_alg».proof.Proof.Gen.Kernel
import proofs.«171226_j29197187678384_1_alg».proof.Proof.Gen.Kernel.Skeleton
import proofs.«171226_j29197187678384_1_alg».proof.Proof.Gen.Kernel.Launch
import proofs.«171226_j29197187678384_1_alg».proof.Proof.Gen.Kernel.Points
import proofs.«171226_j29197187678384_1_alg».proof.Proof.Gen.Kernel.Frame
import proofs.«171226_j29197187678384_1_alg».proof.Proof.Gen.KernelIdeal
import proofs.«171226_j29197187678384_1_alg».proof.Proof.Gen.KernelIdeal.Skeleton
import proofs.«171226_j29197187678384_1_alg».proof.Proof.Gen.KernelIdeal.Launch
import proofs.«171226_j29197187678384_1_alg».proof.Proof.Gen.KernelIdeal.Points
import proofs.«171226_j29197187678384_1_alg».proof.Proof.Gen.KernelIdeal.Frame
import proofs.«171226_j29197187678384_1_alg».proof.Proof.Gen.ReferenceIdeal
import proofs.«171226_j29197187678384_1_alg».proof.Proof.Gen.Pre_finite_inputs
import proofs.«171226_j29197187678384_1_alg».proof.Proof.RefRun
import proofs.«171226_j29197187678384_1_alg».proof.Proof.RefRead
import proofs.«171226_j29197187678384_1_alg».proof.Proof.RunValue
import proofs.«171226_j29197187678384_1_alg».proof.Proof.Chain
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the reference's last stage of the kernel's launched arguments in their result buffers: the
    kernel by its run and the chain of boundary buffers, the reference by its run read as stages, its arguments being
    the kernel's. -/
theorem algebraic : Cert.algebraic_KernelIdeal_ReferenceIdeal := by
  intro m ρ m' ρ' _ hagree
  refine ⟨fun c => Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Chain.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v69_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
